-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024x1024 : Shape := ⟨2, ![1024, 1024]⟩
abbrev S1024 : Shape := ⟨1, ![1024]⟩
abbrev S16x1024 : Shape := ⟨2, ![16, 1024]⟩
abbrev S1024x16 : Shape := ⟨2, ![1024, 16]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S16x1024 : S_.BroadcastsInDim S16x1024 (![] : Fin 0 → Fin S16x1024.rank)
  reducesTo_S16x1024_S_d0_1 : S16x1024.ReducesTo [0, 1] S_
  bcast_S_S1024x16 : S_.BroadcastsInDim S1024x16 (![] : Fin 0 → Fin S1024x16.rank)
  reducesTo_S1024x16_S_d0_1 : S1024x16.ReducesTo [0, 1] S_

variable [Facts]

def fn_part1 {F : FTy → Type} [FloatOps F] (main_arg4 : FVec F S1024x16 .f32) (main_arg5 : FVec F S16x1024 .f32) (main_arg6 : FVec F S1024x16 .f32) (main_v13 : IVec S_ 1) (main_v16 : IVec S16x1024 1) : IVec S_ 1 :=
  let main_c_5 : IVec S_ 1 := constantI S_ 1 1#1
  let main_v17 : IVec S_ 1 := (fun x v => Host.reduce IntOp.andi x v reducesTo_S16x1024_S_d0_1 h_S_) main_v16 main_c_5
  let main_v18 : IVec S_ 1 := andi main_v13 main_v17
  let main_v19 : FVec F S1024x16 .f32 := Host.absf main_arg4
  let main_cst_6 : FVec F S_ .f32 := constant S_ .f32 0x7F800000#32
  let main_v20 : FVec F S1024x16 .f32 := broadcastInDim S1024x16 ![] bcast_S_S1024x16 main_cst_6
  let main_v21 : IVec S1024x16 1 := cmpf .olt main_v19 main_v20
  let main_c_7 : IVec S_ 1 := constantI S_ 1 1#1
  let main_v22 : IVec S_ 1 := (fun x v => Host.reduce IntOp.andi x v reducesTo_S1024x16_S_d0_1 h_S_) main_v21 main_c_7
  let main_v23 : IVec S_ 1 := andi main_v18 main_v22
  let main_v24 : FVec F S16x1024 .f32 := Host.absf main_arg5
  let main_cst_8 : FVec F S_ .f32 := constant S_ .f32 0x7F800000#32
  let main_v25 : FVec F S16x1024 .f32 := broadcastInDim S16x1024 ![] bcast_S_S16x1024 main_cst_8
  let main_v26 : IVec S16x1024 1 := cmpf .olt main_v24 main_v25
  let main_c_9 : IVec S_ 1 := constantI S_ 1 1#1
  let main_v27 : IVec S_ 1 := (fun x v => Host.reduce IntOp.andi x v reducesTo_S16x1024_S_d0_1 h_S_) main_v26 main_c_9
  let main_v28 : IVec S_ 1 := andi main_v23 main_v27
  let main_v29 : FVec F S1024x16 .f32 := Host.absf main_arg6
  let main_cst_10 : FVec F S_ .f32 := constant S_ .f32 0x7F800000#32
  let main_v30 : FVec F S1024x16 .f32 := broadcastInDim S1024x16 ![] bcast_S_S1024x16 main_cst_10
  let main_v31 : IVec S1024x16 1 := cmpf .olt main_v29 main_v30
  let main_c_11 : IVec S_ 1 := constantI S_ 1 1#1
  let main_v32 : IVec S_ 1 := (fun x v => Host.reduce IntOp.andi x v reducesTo_S1024x16_S_d0_1 h_S_) main_v31 main_c_11
  let main_v33 : IVec S_ 1 := andi main_v28 main_v32
  main_v33

def fn {F : FTy → Type} [FloatOps F] (main_arg0 : FVec F S32768x1024 .f32) (main_arg1 : FVec F S1024x1024 .f32) (main_arg2 : FVec F S1024 .f32) (main_arg3 : FVec F S16x1024 .f32) (main_arg4 : FVec F S1024x16 .f32) (main_arg5 : FVec F S16x1024 .f32) (main_arg6 : FVec F S1024x16 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S16x1024 .f32 := Host.absf main_arg3
  let main_cst_4 : FVec F S_ .f32 := constant S_ .f32 0x7F800000#32
  let main_v15 : FVec F S16x1024 .f32 := broadcastInDim S16x1024 ![] bcast_S_S16x1024 main_cst_4
  let main_v16 : IVec S16x1024 1 := cmpf .olt main_v14 main_v15
  fn_part1 (F := F) main_arg4 main_arg5 main_arg6 main_v13 main_v16
-- ==== Kernel.lean ====
abbrev S32768x1024 : Shape := ⟨2, ![32768, 1024]⟩
abbrev S1024x1024 : Shape := ⟨2, ![1024, 1024]⟩
abbrev S1024 : Shape := ⟨1, ![1024]⟩
abbrev S16x1024 : Shape := ⟨2, ![16, 1024]⟩
abbrev S1024x16 : Shape := ⟨2, ![1024, 16]⟩
abbrev S_ : Shape := ⟨0, ![]⟩
abbrev S1x1024 : Shape := ⟨2, ![1, 1024]⟩
abbrev S2048x1024 : Shape := ⟨2, ![2048, 1024]⟩

abbrev nBuf : Space → Nat
  | .hbm => 22
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024, .f32⟩
  | .hbm, ⟨3, _⟩ => ⟨S16x1024, .f32⟩
  | .hbm, ⟨4, _⟩ => ⟨S1024x16, .f32⟩
  | .hbm, ⟨5, _⟩ => ⟨S16x1024, .f32⟩
  | .hbm, ⟨6, _⟩ => ⟨S1024x16, .f32⟩
  | .hbm, ⟨7, _⟩ => ⟨S_, .f32⟩
  | .hbm, ⟨8, _⟩ => ⟨S1024x16, .f32⟩
  | .hbm, ⟨9, _⟩ => ⟨S1024x16, .f32⟩
  | .hbm, ⟨10, _⟩ => ⟨S1024x1024, .f32⟩
  | .hbm, ⟨11, _⟩ => ⟨S_, .f32⟩
  | .hbm, ⟨12, _⟩ => ⟨S1024x16, .f32⟩
  | .hbm, ⟨13, _⟩ => ⟨S1024x16, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .bf16⟩
  | .hbm, ⟨19, _⟩ => ⟨S32768x1024, .bf16⟩
  | .hbm, ⟨20, _⟩ => ⟨S1x1024, .f32⟩
  | .hbm, ⟨21, _⟩ => ⟨S32768x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1x1024, .f32⟩
  | .local _ .vmem, ⟨4, _⟩ => ⟨S2048x1024, .f32⟩
  | .local _ .vmem, ⟨5, _⟩ => ⟨S2048x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1024x16 : S_.BroadcastsInDim S1024x16 (![] : Fin 0 → Fin S1024x16.rank)
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S1024x16_S16x1024_S1024x1024_1_0_0_1_n_n_wf : DotDims.WF S1024x16 S16x1024 S1024x1024 [1] [0] [0] [1] [] []
  dot_S2048x1024_S1024x1024_S2048x1024_1_0_0_1_n_n_wf : DotDims.WF S2048x1024 S1024x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .bf16 = 32 ∨ (Rect.block (s := S32768x1024) S2048x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S32768x1024.size a
  hwx0_3 : ∀ i : grid0.Coords, EltTy.bits .f32 = 32 ∨ (Rect.block (s := S32768x1024) S2048x1024.size (cc0_transform_3 i) (hinb0_3 i)).WholeWords (EltTy.packing .f32)

variable [Facts₀]

def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

abbrev win0_0 : Pipeline.Window sig grid0 :=
  Pipeline.Window.ofSpec (Memref.whole main_v10) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S1024x1024 : Shape := ⟨2, ![1024, 1024]⟩
abbrev S1024 : Shape := ⟨1, ![1024]⟩
abbrev S16x1024 : Shape := ⟨2, ![16, 1024]⟩
abbrev S1024x16 : Shape := ⟨2, ![1024, 16]⟩
abbrev S1x1024 : Shape := ⟨2, ![1, 1024]⟩
abbrev S32768x16 : Shape := ⟨2, ![32768, 16]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024, .f32⟩
  | .hbm, ⟨3, _⟩ => ⟨S16x1024, .f32⟩
  | .hbm, ⟨4, _⟩ => ⟨S1024x16, .f32⟩
  | .hbm, ⟨5, _⟩ => ⟨S16x1024, .f32⟩
  | .hbm, ⟨6, _⟩ => ⟨S1024x16, .f32⟩
  | .hbm, ⟨7, _⟩ => ⟨S32768x1024, .f32⟩
  | .hbm, ⟨8, _⟩ => ⟨S1x1024, .f32⟩
  | .hbm, ⟨9, _⟩ => ⟨S32768x1024, .f32⟩
  | .hbm, ⟨10, _⟩ => ⟨S32768x1024, .f32⟩
  | .hbm, ⟨11, _⟩ => ⟨S32768x16, .f32⟩
  | .hbm, ⟨12, _⟩ => ⟨S32768x1024, .f32⟩
  | .hbm, ⟨13, _⟩ => ⟨S_, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x16, .f32⟩
  | .hbm, ⟨18, _⟩ => ⟨S32768x1024, .f32⟩
  | .hbm, ⟨19, _⟩ => ⟨S_, .f32⟩
  | .hbm, ⟨20, _⟩ => ⟨S32768x1024, .f32⟩
  | .hbm, ⟨21, _⟩ => ⟨S32768x1024, .f32⟩
  | .hbm, ⟨22, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S_S32768x1024 : S_.BroadcastsInDim S32768x1024 (![] : Fin 0 → Fin S32768x1024.rank)
  dot_S32768x1024_S1024x1024_S32768x1024_1_1_0_0_n_n_wf : DotDims.WF S32768x1024 S1024x1024 S32768x1024 [1] [1] [0] [0] [] []
  dot_S32768x1024_S16x1024_S32768x16_1_1_0_0_n_n_wf : DotDims.WF S32768x1024 S16x1024 S32768x16 [1] [1] [0] [0] [] []
  dot_S32768x16_S1024x16_S32768x1024_1_1_0_0_n_n_wf : DotDims.WF S32768x16 S1024x16 S32768x1024 [1] [1] [0] [0] [] []

variable [Facts₀]

def dot_S32768x1024_S1024x1024_S32768x1024_1_1_0_0_n_n : DotDims S32768x1024 S1024x1024 S32768x1024 where
  lhsContracting := [1]
  rhsContracting := [1]
  lhsNonContracting := [0]
  rhsNonContracting := [0]
  lhsBatch := []
  rhsBatch := []
  wf := dot_S32768x1024_S1024x1024_S32768x1024_1_1_0_0_n_n_wf
def dot_S32768x1024_S16x1024_S32768x16_1_1_0_0_n_n : DotDims S32768x1024 S16x1024 S32768x16 where
  lhsContracting := [1]
  rhsContracting := [1]
  lhsNonContracting := [0]
  rhsNonContracting := [0]
  lhsBatch := []
  rhsBatch := []
  wf := dot_S32768x1024_S16x1024_S32768x16_1_1_0_0_n_n_wf
def dot_S32768x16_S1024x16_S32768x1024_1_1_0_0_n_n : DotDims S32768x16 S1024x16 S32768x1024 where
  lhsContracting := [1]
  rhsContracting := [1]
  lhsNonContracting := [0]
  rhsNonContracting := [0]
  lhsBatch := []
  rhsBatch := []
  wf := dot_S32768x16_S1024x16_S32768x1024_1_1_0_0_n_n_wf

class Facts : Prop extends Facts₀ where

variable [Facts]
-- ==== Proof.Scales.lean ====
/-
  The three float constants the two programs spell, as the extended reals their bit patterns denote at the exact
  instance: the adapter scales  8/16 = 1/2  and  16/16 = 1,  and the positive infinity the finiteness test compares
  against.  Stated once here so that no other module unfolds the decoding of a pattern.
-/
import Idealize.ShloMosaic.PureOps.Ideal

noncomputable section

namespace Cert.Scales

open Idealize.ShloMosaic

/-- The pattern of `0.5` denotes the real number 1/2. -/
theorem ofBits_half : Ideal.ofBits .f32 0x3F000000#32 = ((1 / 2 : ℝ) : EReal) := by
  simp [Ideal.ofBits, Ideal.ieee, -EReal.coe_mul]; norm_num

/-- The pattern of `1.0` denotes the real number 1. -/
theorem ofBits_one : Ideal.ofBits .f32 0x3F800000#32 = ((1 : ℝ) : EReal) := by
  simp [Ideal.ofBits, Ideal.ieee, -EReal.coe_mul]; norm_num

/-- The pattern with all exponent bits set and no fraction bit denotes +∞. -/
theorem ofBits_inf : Ideal.ofBits .f32 0x7F800000#32 = (⊤ : EReal) := by
  simp [Ideal.ofBits, Ideal.ieee]

end Cert.Scales

end
-- ==== Proof.Finite.lean ====
/-
  The precondition read: every input entry is a real number.

  The precondition says, of each of the seven input arrays, that the absolute value of every entry lies strictly
  below +∞, and takes the conjunction of the seven.  An extended real is  ⊥, a real number, or ⊤;  the absolute value
  of ⊥ and of ⊤ is ⊤, which is not below ⊤.  So every entry of every input is a real number.
-/
import proofs.«152559_j71090298683825_1_alg».proof.Pre_finite_inputs
import proofs.«152559_j71090298683825_1_alg».proof.Proof.Scales
import Idealize.ShloMosaic.Lib.ReduceAll
import Idealize.ShloMosaic.Lib.Affine
import Idealize.ShloMosaic.Lib.ValueIdx
import Idealize.ShloMosaic.Lib.Pipeline.Value
import Idealize.ShloMosaic.PureOps.Ideal.Laws

noncomputable section

namespace Cert.Finite

open Idealize.ShloMosaic Idealize.ShloMosaic.ValueIdx

/-- The scalar shape has one index. -/
instance : Subsingleton (⟨0, ![]⟩ : Shape).Idx := ⟨fun _ _ => funext fun d => d.elim0⟩

/-- An extended real whose absolute value is strictly below +∞ is a real number. -/
theorem real_of_abs_lt_top (x : EReal) (h : Ideal.cmp .olt (max x (-x)) ⊤ = 1#1) : ∃ r : ℝ, x = (r : EReal) := by
  induction x using EReal.rec with
  | bot => exfalso; simp [Ideal.cmp] at h
  | coe r => exact ⟨r, rfl⟩
  | top => exfalso; simp [Ideal.cmp] at h

/-- One conjunct of the precondition: if the test "|x| < +∞ at every index" holds, every entry of `x` is real. -/
theorem entries_real {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel) (init : IVec ⟨0, ![]⟩ 1)
    (e : Host.reduce IntOp.andi (cmpf .olt (Host.absf x) (broadcastInDim s ![] hb (constant ⟨0, ![]⟩ .f32 0x7F800000#32)))
      init hr hu ix0 = 1#1)
    (i : s.Idx) : ∃ r : ℝ, x i = (r : EReal) := by
  have h := Host.reduce_andi_all _ _ hr hu ix0 e i
  have hsp : broadcastInDim s ![] hb (constant (F := Ideal) ⟨0, ![]⟩ .f32 0x7F800000#32) i = (⊤ : EReal) :=
    (broadcastInDim_apply _ hb _ i (fun a => a.elim0) (fun a => a.elim0)).trans Cert.Scales.ofBits_inf
  refine real_of_abs_lt_top (x i) ?_
  have h' : Ideal.cmp .olt (max (x i) (-(x i)))
      (broadcastInDim s ![] hb (constant (F := Ideal) ⟨0, ![]⟩ .f32 0x7F800000#32) i) = 1#1 := h
  rwa [hsp] at h'

section

variable [Cert.Pre_finite_inputs.Facts]

open Cert.Pre_finite_inputs

/-- The whole precondition: all seven inputs have only real entries. -/
theorem inputs_real (x0 : FVec Ideal S32768x1024 .f32) (x1 : FVec Ideal S1024x1024 .f32) (x2 : FVec Ideal S1024 .f32)
    (x3 : FVec Ideal S16x1024 .f32) (x4 : FVec Ideal S1024x16 .f32) (x5 : FVec Ideal S16x1024 .f32)
    (x6 : FVec Ideal S1024x16 .f32) (h : fn (F := Ideal) x0 x1 x2 x3 x4 x5 x6 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal))
      ∧ (∀ i, ∃ r : ℝ, x6 i = (r : EReal)) := by
  have h0 := congrFun h ix0
  dsimp only [fn, fn_part1] at h0
  obtain ⟨h5, e6⟩ := IntOp.andi_eq_one.1 h0
  obtain ⟨h4, e5⟩ := IntOp.andi_eq_one.1 h5
  obtain ⟨h3, e4⟩ := IntOp.andi_eq_one.1 h4
  obtain ⟨h2, e3⟩ := IntOp.andi_eq_one.1 h3
  obtain ⟨h1, e2⟩ := IntOp.andi_eq_one.1 h2
  obtain ⟨e0, e1⟩ := IntOp.andi_eq_one.1 h1
  exact ⟨entries_real x0 _ _ _ _ e0, entries_real x1 _ _ _ _ e1, entries_real x2 _ _ _ _ e2, entries_real x3 _ _ _ _ e3,
    entries_real x4 _ _ _ _ e4, entries_real x5 _ _ _ _ e5, entries_real x6 _ _ _ _ e6⟩

end

end Cert.Finite

end
-- ==== Proof.LibMergeLaw.lean ====
/-
  Merging two low-rank adapters into the base weight.

  A linear layer with base weight  w  (one row per output), bias rows  β  and two low-rank adapters  (a₁, b₁)  and
  (a₂, b₂)  scaled by  h  and  u  computes
      x wᵀ + β + h · (x a₁ᵀ) b₁ᵀ + u · (x a₂ᵀ) b₂ᵀ .
  Because the matrix product is associative and distributes over sums, and a scalar moves freely through a product,
  this is ONE product of  x  with the transposed merged weight  w + (h b₁) a₁ + (u b₂) a₂ , plus the bias.  The law
  holds over any commutative ring, so over the real numbers; on extended reals it fails at the infinities.
-/
import Mathlib.Data.Matrix.Mul
import Mathlib.Tactic.Abel

namespace Cert.MergeLaw

variable {T I O R : Type*} [Fintype T] [Fintype I] [Fintype O] [Fintype R] {α : Type*} [CommRing α]

/-- One product with the merged weight equals the base layer plus the two scaled adapter paths. -/
theorem merged (x : Matrix T I α) (w : Matrix O I α) (β : Matrix T O α)
    (a₁ a₂ : Matrix R I α) (b₁ b₂ : Matrix O R α) (h u : α) :
    x * (w + ((h • b₁) * a₁ + (u • b₂) * a₂)).transpose + β
      = ((x * w.transpose + β) + h • ((x * a₁.transpose) * b₁.transpose)) + u • ((x * a₂.transpose) * b₂.transpose) := by
  simp only [Matrix.transpose_add, Matrix.transpose_mul, Matrix.transpose_smul, Matrix.mul_add, Matrix.mul_smul,
    Matrix.mul_assoc]
  abel

end Cert.MergeLaw
-- ==== Proof.KernelHost.lean ====
/-
  What the pipelined region finds in its three operand arrays.

  Before the region, the host merges the two adapters into the base weight,
      W' = W + ((B₁ · ½) A₁ + (B₂ · 1) A₂),
  transposes it and narrows it to bf16; it narrows the activations  x  to bf16; and it views the bias vector as a
  one-row matrix.  These three arrays are the region's operands.  Here each is named as a function of the program's
  arguments, and the region-entry contents are shown to be those functions of the launch memory.
-/
import proofs.«152559_j71090298683825_1_alg».proof.Proof.Gen.KernelIdeal.Frame
import Idealize.ShloMosaic.Lib.StableHlo.Run
import Idealize.ShloMosaic.PureOps.Ideal

noncomputable section

namespace Cert.KernelIdeal.Operands

open Cert.KernelIdeal Cert.KernelIdeal.Gen Idealize.ShloMosaic Idealize.ShloMosaic.TcCoe Idealize.SL.Sem
open Idealize.ShloMosaic.StableHlo

/-- The merged weight  W + ((B₁ · ½) A₁ + (B₂ · 1) A₂),  one row per output feature. -/
def merged (w : FVec Ideal S1024x1024 .f32) (a1 : FVec Ideal S16x1024 .f32) (b1 : FVec Ideal S1024x16 .f32)
    (a2 : FVec Ideal S16x1024 .f32) (b2 : FVec Ideal S1024x16 .f32) : FVec Ideal S1024x1024 .f32 :=
  addf w (addf
    (Host.dotGeneral dot_S1024x16_S16x1024_S1024x1024_1_0_0_1_n_n none
      (mulf b1 (broadcastInDim S1024x16 ![] Facts₀.bcast_S_S1024x16 (constant (F := Ideal) S_ .f32 0x3F000000#32))) a1)
    (Host.dotGeneral dot_S1024x16_S16x1024_S1024x1024_1_0_0_1_n_n none
      (mulf b2 (broadcastInDim S1024x16 ![] Facts₀.bcast_S_S1024x16 (constant (F := Ideal) S_ .f32 0x3F800000#32))) a2))

/-- The region's weight operand: the merged weight transposed (one row per input feature) and narrowed. -/
def weightOperand (w : FVec Ideal S1024x1024 .f32) (a1 : FVec Ideal S16x1024 .f32) (b1 : FVec Ideal S1024x16 .f32)
    (a2 : FVec Ideal S16x1024 .f32) (b2 : FVec Ideal S1024x16 .f32) : FVec Ideal S1024x1024 .bf16 :=
  truncf .bf16 (transpose S1024x1024 [1, 0] (merged w a1 b1 a2 b2) Facts₀.transposes_S1024x1024_S1024x1024_1_0) Facts₀.bitsLt_bf16_f32

/-- The region's activation operand: the activations narrowed. -/
def actOperand (x : FVec Ideal S32768x1024 .f32) : FVec Ideal S32768x1024 .bf16 := truncf .bf16 x Facts₀.bitsLt_bf16_f32

/-- The region's bias operand: the bias vector as a one-row matrix. -/
def biasOperand (b : FVec Ideal S1024 .f32) : FVec Ideal S1x1024 .f32 := shapeCast S1x1024 b Facts₀.shapeCasts_S1024_S1x1024

variable (m : (ℓ : Loc nD τ sig) → Buf (Elt Ideal) ℓ)

theorem V_weight (c : Dev nD) :
    (V m c main_v9 : S1024x1024.Idx → EReal)
      = weightOperand (m ((c : Thread nD τ).loc main_arg1)) (m ((c : Thread nD τ).loc main_arg3))
          (m ((c : Thread nD τ).loc main_arg4)) (m ((c : Thread nD τ).loc main_arg5)) (m ((c : Thread nD τ).loc main_arg6)) := by
  dsimp only [Gen.V, Gen.hostOps0]
  after_results
  rfl

theorem V_act (c : Dev nD) :
    (V m c main_v10 : S32768x1024.Idx → EReal) = actOperand (m ((c : Thread nD τ).loc main_arg0)) := by
  dsimp only [Gen.V, Gen.hostOps0]
  after_results
  rfl

theorem V_bias (c : Dev nD) :
    (V m c main_v11 : S1x1024.Idx → EReal) = biasOperand (m ((c : Thread nD τ).loc main_arg2)) := by
  dsimp only [Gen.V, Gen.hostOps0]
  after_results
  rfl

end Cert.KernelIdeal.Operands

end
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.LibRowLayout.lean ====
/-
  A column turned into a row and spread over a matrix, read at an index.

  An [a, 1] column transposed is a [1, a] row whose entry (0, q) is the column's entry (q, 0); a [1, b] row
  broadcast to [a, b] has at (p, q) the row's entry (0, q): every entry of column q sees that column's own value.
  Stated for any element type and any extents.
-/
import Idealize.ShloMosaic.Lib.Pipeline.Value
import Idealize.ShloMosaic.Lib.ValueIdx

noncomputable section

namespace RowLayout

open Idealize.ShloMosaic Idealize.ShloMosaic.ValueIdx

/-- An [a, 1] column transposed to a [1, a] row reads, at (u, q), the column's entry (q, u). -/
theorem transpose_a1_1a_apply {α : Type} {a : ℕ} (x : (⟨2, ![a, 1]⟩ : Shape).Idx → α)
    (h : (⟨2, ![a, 1]⟩ : Shape).Transposes [1, 0] ⟨2, ![1, a]⟩) (u : Fin 1) (q : Fin a) :
    transpose ⟨2, ![1, a]⟩ [1, 0] x h (ix2 u q) = x (ix2 q u) := by
  refine transpose_apply [1, 0] x h (ix2 u q) (ix2 q u) fun b => ?_
  match b with
  | ⟨0, _⟩ => rfl
  | ⟨1, _⟩ => rfl

/-- A [1, b] row broadcast to [a, b] reads, at (p, q), the row's entry (0, q). -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

end RowLayout

end
-- ==== Proof.KernelBlocks.lean ====
/-
  The pipelined region's result array, as one function of its three operand arrays.

  The region runs over 16 grid points.  At point  t  the body sees rows  2048 t … 2048 t + 2047  of the activation
  operand, the whole weight operand and the whole one-row bias operand; it multiplies the activation rows by the
  weight (a plain matrix product into a zero accumulator), adds the bias row to every row, and writes the 2048 × 1024
  block back to rows  2048 t …  of the result.  So entry (r, o) of the result is
      ∑ᵢ act (r, i) · wt (i, o) + bias (0, o),
  the blocks being restrictions of that one array and covering it (row r lies in the block of point r / 2048).
-/
import proofs.«152559_j71090298683825_1_alg».proof.Proof.Gen.KernelIdeal.Value
import proofs.«152559_j71090298683825_1_alg».proof.Proof.LibPlainDot
import proofs.«152559_j71090298683825_1_alg».proof.Proof.LibRowLayout
import Idealize.ShloMosaic.Lib.Pipeline.Value
import Idealize.ShloMosaic.Lib.ValueIdx
import Idealize.ShloMosaic.PureOps.Ideal.Laws

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

/-- The affine layer on whole arrays: entry (r, o) is the product of row r of `act` with column o of `wt`, plus the
    bias of column o. -/
def affine (act : S32768x1024.Idx → EReal) (wt : S1024x1024.Idx → EReal) (bias : S1x1024.Idx → EReal) :
    S32768x1024.Idx → EReal :=
  fun j => (∑ i : Fin 1024, act (ix2 (n0 := 32768) (j 0) i) * wt (ix2 i (j 1))) + bias (ix2 (0 : Fin 1) (j 1))

theorem hz : (![0, 0] : Fin 2 → Nat) = fun _ => 0 := funext fun a => by fin_cases a <;> rfl

/-- The body's matrix product contracts the left operand's columns with the right operand's rows. -/
theorem plain : PlainDot.IsPlain dot_S2048x1024_S1024x1024_S2048x1024_1_0_0_1_n_n := ⟨rfl, rfl, rfl, rfl, rfl, rfl⟩

/-- What the body stores, entry by entry, from the three blocks it loads. -/
theorem pay_apply (x0 : Vec Ideal S2048x1024 .bf16) (x1 : Vec Ideal S1024x1024 .bf16) (x2 : Vec Ideal S1x1024 .f32)
    (p : Fin 2048) (q : Fin 1024) :
    k0_pay1 x0 x1 x2 (ix2 p q) = (∑ i : Fin 1024, x0 (ix2 p i) * x1 (ix2 i q)) + x2 (ix2 (0 : Fin 1) q) := by
  unfold k0_pay1
  simp only [shapeCast_self]
  refine (addf_apply _ _ _).trans ?_
  rw [PlainDot.matmul_zero_apply plain, RowLayout.broadcastTo_1b_ab_apply]

variable (m : (ℓ : Loc nD τ sig) → Buf (Elt Ideal) ℓ) (ρ : Dev nD → PrngReg)

/-- The printed index maps, decided over the 16 grid points: the activation window and the result window sit at
    block row `t`, block column 0; the weight and bias windows always at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The activation block at point `t` is rows  2048 t … 2048 t + 2047  of the activation operand. -/
theorem act_block (c : Dev nD) (t : Fin cfg0.N) (y : S2048x1024.Idx) (k : S32768x1024.Idx)
    (hk0 : (k 0).val = 2048 * t.val + (y 0).val) (hk1 : (k 1).val = (y 1).val) :
    (iblk m c 0 t : Vec Ideal S2048x1024 .bf16) y = (V m c main_v10 : S32768x1024.Idx → EReal) k := by
  obtain ⟨e0, e1, -⟩ := idx_facts t
  unfold iblk
  rw [View.read_apply]
  show V m c main_v10 _ = V m c main_v10 _
  congr 1
  funext a
  apply Fin.ext
  match a with
  | ⟨0, _⟩ => show win0_0.index t (0 : Fin 2) * 2048 + 1 * (y 0).val = (k 0).val; rw [e0, hk0]; omega
  | ⟨1, _⟩ => show win0_0.index t (1 : Fin 2) * 1024 + 1 * (y 1).val = (k 1).val; rw [e1, hk1]; omega

/-- The weight block at every point is the whole weight operand. -/
theorem wt_block (c : Dev nD) (t : Fin cfg0.N) (y k : S1024x1024.Idx)
    (hk0 : (k 0).val = (y 0).val) (hk1 : (k 1).val = (y 1).val) :
    (iblk m c 1 t : Vec Ideal S1024x1024 .bf16) y = (V m c main_v9 : S1024x1024.Idx → EReal) k := by
  obtain ⟨-, -, e0, e1, -⟩ := idx_facts t
  unfold iblk
  rw [View.read_apply]
  show V m c main_v9 _ = V m c main_v9 _
  congr 1
  funext a
  apply Fin.ext
  match a with
  | ⟨0, _⟩ => show win0_1.index t (0 : Fin 2) * 1024 + 1 * (y 0).val = (k 0).val; rw [e0, hk0]; omega
  | ⟨1, _⟩ => show win0_1.index t (1 : Fin 2) * 1024 + 1 * (y 1).val = (k 1).val; rw [e1, hk1]; omega

/-- The bias block at every point is the whole one-row bias operand. -/
theorem bias_block (c : Dev nD) (t : Fin cfg0.N) (y k : S1x1024.Idx)
    (hk0 : (k 0).val = (y 0).val) (hk1 : (k 1).val = (y 1).val) :
    (iblk m c 2 t : Vec Ideal S1x1024 .f32) y = (V m c main_v11 : S1x1024.Idx → EReal) k := by
  obtain ⟨-, -, -, -, e0, e1, -⟩ := idx_facts t
  unfold iblk
  rw [View.read_apply]
  show V m c main_v11 _ = V m c main_v11 _
  congr 1
  funext a
  apply Fin.ext
  match a with
  | ⟨0, _⟩ => show win0_2.index t (0 : Fin 2) * 1 + 1 * (y 0).val = (k 0).val; rw [e0, hk0]; omega
  | ⟨1, _⟩ => show win0_2.index t (1 : Fin 2) * 1024 + 1 * (y 1).val = (k 1).val; rw [e1, hk1]; omega

/-- WHAT POINT `t` WRITES BACK is block `t` of the affine layer of the operand arrays as the region finds them. -/
theorem flushed_eq (c : Dev nD) (t : Fin cfg0.N) :
    (dats m 0 c).flushed 3 t
      = ((cfg0.win 3).blk t).view.read (Elt Ideal) (affine (V m c main_v10) (V m c main_v9) (V m c main_v11)) := by
  rw [Cert.KernelIdeal.Value.flushed3]
  unfold out0_3
  rw [View.canon_unit_zero hz]
  simp only [View.ld_unit_zero (S := S2048x1024) hz, View.ld_unit_zero (S := S1024x1024) hz,
    View.ld_unit_zero (S := S1x1024) hz]
  obtain ⟨-, -, -, -, -, -, e0, e1⟩ := idx_facts t
  refine funext fun (j : S2048x1024.Idx) => ?_
  have h0 : ((((cfg0.win 3).blk t).view.emb j) 0).val = 2048 * t.val + (j 0).val := by
    show win0_3.index t (0 : Fin 2) * 2048 + 1 * (j 0).val = _
    rw [e0]; omega
  have h1 : ((((cfg0.win 3).blk t).view.emb j) 1).val = (j 1).val := by
    show win0_3.index t (1 : Fin 2) * 1024 + 1 * (j 1).val = _
    rw [e1]; omega
  show k0_pay1 (iblk m c 0 t) (iblk m c 1 t) (iblk m c 2 t) j
    = affine (V m c main_v10) (V m c main_v9) (V m c main_v11) (((cfg0.win 3).blk t).view.emb j)
  refine ((congrArg (k0_pay1 (iblk m c 0 t) (iblk m c 1 t) (iblk m c 2 t)) (eq_ix2 j)).trans
    (pay_apply (iblk m c 0 t) (iblk m c 1 t) (iblk m c 2 t) (j 0) (j 1))).trans ?_
  unfold affine
  refine congrArg₂ (· + ·) (Finset.sum_congr rfl fun i _ => congrArg₂ (· * ·) ?_ ?_) ?_
  · exact act_block m c t (ix2 (j 0) i) _ h0 rfl
  · exact wt_block m c t (ix2 i (j 1)) _ rfl h1
  · exact bias_block m c t (ix2 (0 : Fin 1) (j 1)) _ rfl h1

/-- An index of the result array is in point `t`'s block iff each coordinate is in the block's range on its axis. -/
theorem mem_blk (t : Fin cfg0.N) (i : S32768x1024.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v12).slice (win0_3.rect t)).set ↔ _
  rw [View.set_slice_whole, Rect.mem_set_unit]
  exact Iff.rfl

/-- Every index of the result array lies in some point's block: row r in the block of point r / 2048. -/
theorem cover (i : S32768x1024.Idx) :
    ∃ t : Fin cfg0.N, (cfg0.win 3).flush t = true ∧ i ∈ ((cfg0.win 3).blk t).view.set := by
  have h0 : (i 0).val < 32768 := (i 0).isLt
  have h1 : (i 1).val < 1024 := (i 1).isLt
  have hN : cfg0.N = 16 := N_0
  have hlt : (i 0).val / 2048 < cfg0.N := by rw [hN]; omega
  obtain ⟨-, -, -, -, -, -, e0, e1⟩ := idx_facts ⟨(i 0).val / 2048, hlt⟩
  refine ⟨⟨(i 0).val / 2048, hlt⟩, flush0_3 _, ?_⟩
  rw [mem_blk]
  intro a
  match a with
  | ⟨0, _⟩ =>
    show win0_3.index ⟨(i 0).val / 2048, hlt⟩ (0 : Fin 2) * 2048 ≤ (i 0).val
      ∧ (i 0).val < win0_3.index ⟨(i 0).val / 2048, hlt⟩ (0 : Fin 2) * 2048 + 2048
    rw [e0]; show (i 0).val / 2048 * 2048 ≤ (i 0).val ∧ (i 0).val < (i 0).val / 2048 * 2048 + 2048; omega
  | ⟨1, _⟩ =>
    show win0_3.index ⟨(i 0).val / 2048, hlt⟩ (1 : Fin 2) * 1024 ≤ (i 1).val
      ∧ (i 1).val < win0_3.index ⟨(i 0).val / 2048, hlt⟩ (1 : Fin 2) * 1024 + 1024
    rw [e1]; omega

/-- THE RESULT ARRAY after the run: the affine layer of the three operand arrays as the region finds them. -/
theorem final (c : Dev nD) :
    (dats m 0 c).arrAt 3 cfg0.N = affine (V m c main_v10) (V m c main_v9) (V m c main_v11) :=
  (dats m 0 c).arrAt_eq_of_cover 3 (affine (V m c main_v10) (V m c main_v9) (V m c main_v11))
    (fun t _ => flushed_eq m c t) cover

end Cert.KernelIdeal.Blocks

end
-- ==== Proof.LibDotForms.lean ====
/-
  Two transposed matrix products read at an entry.

  `A · Bᵀ` — an M×K array times the transpose of an N×K array: both operands are contracted along their second axis,
  and the result entry (p, q) is `∑ i : Fin K, lhs (p, i) * rhs (q, i)`.
  `Aᵀ · B` — the transpose of a K×M array times a K×N array: both operands are contracted along their first axis,
  and the result entry (p, q) is `∑ i : Fin K, lhs (i, p) * rhs (i, q)`.
  Each statement is for ANY record with those dimension numbers and no batch axes, at every size, for a kernel's
  product into a zero accumulator and for a host `dot_general` alike.
-/
import Idealize.ShloMosaic.Lib.ValueIdx
import Idealize.ShloMosaic.PureOps.Ideal.Laws

noncomputable section

open scoped BigOperators

namespace DotForms

open Idealize.ShloMosaic Idealize.ShloMosaic.ValueIdx

variable {M K N : Nat}

/-- `A · Bᵀ`: contract axis 1 of the left operand with axis 1 of the right one; the operands' axes 0 are the result's. -/
structure IsABt (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

/-- `Aᵀ · B`: contract axis 0 of the left operand with axis 0 of the right one; the operands' axes 1 are the result's. -/
structure IsAtB (d : DotDims ⟨2, ![K, M]⟩ ⟨2, ![K, N]⟩ ⟨2, ![M, N]⟩) : Prop where
  lc : d.lhsContracting = [0]
  rc : d.rhsContracting = [0]
  ln : d.lhsNonContracting = [1]
  rn : d.rhsNonContracting = [1]
  lb : d.lhsBatch = []
  rb : d.rhsBatch = []

section ABt

variable {d : DotDims ⟨2, ![M, K]⟩ ⟨2, ![N, K]⟩ ⟨2, ![M, N]⟩}

/-- `A · Bᵀ`: the left operand's row coordinate is the result's row. -/
theorem abt_lhs_row (h : IsABt d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- `A · Bᵀ`: the right operand's row coordinate is the result's column. -/
theorem abt_rhs_row (h : IsABt d) (j : (⟨2, ![M, N]⟩ : Shape).Idx) (k : d.contr.Idx) :
    (d.rhsIdx j k 0 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem abt_contr_rank (h : IsABt d) : d.contr.rank = 1 := by
  rw [d.rank_contr, h.lc]; rfl

theorem abt_contr_size (h : IsABt d) : d.contr.size ⟨0, by rw [abt_contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- `A · Bᵀ`, the sum: over the one contracted axis (each operand's second), entry by entry. -/
theorem abt_sum_eq (h : IsABt d) (lhs : (⟨2, ![M, K]⟩ : Shape).Idx → EReal) (rhs : (⟨2, ![N, K]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 q i) := by
  rw [← Equiv.sum_comp (contrEquiv1 d K (abt_contr_rank h) (abt_contr_size h)).symm]
  refine Finset.sum_congr rfl fun i _ => ?_
  have hk := contrEquiv1_symm_val d K (abt_contr_rank h) (abt_contr_size h) i
  have el : d.lhsIdx (ix2 p q) ((contrEquiv1 d K (abt_contr_rank h) (abt_contr_size h)).symm i) = ix2 p i := by
    funext a; refine Fin.ext ?_
    match a with
    | ⟨0, _⟩ => exact abt_lhs_row h _ _
    | ⟨1, _⟩ => exact (d.lhsIdx_val_of_single h.lc _ _).trans hk
  have er : d.rhsIdx (ix2 p q) ((contrEquiv1 d K (abt_contr_rank h) (abt_contr_size h)).symm i) = ix2 q i := by
    funext a; refine Fin.ext ?_
    match a with
    | ⟨0, _⟩ => exact abt_rhs_row h _ _
    | ⟨1, _⟩ => exact (d.rhsIdx_val_of_single h.rc _ _).trans hk
  rw [el, er]

end ABt

section AtB

variable {d : DotDims ⟨2, ![K, M]⟩ ⟨2, ![K, N]⟩ ⟨2, ![M, N]⟩}

/-- `Aᵀ · B`: the left operand's column coordinate is the result's row. -/
theorem atb_lhs_col (h : IsAtB d) (j : (⟨2, ![M, N]⟩ : Shape).Idx) (k : d.contr.Idx) :
    (d.lhsIdx j k 1 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- `Aᵀ · B`: the right operand's column coordinate is the result's column. -/
theorem atb_rhs_col (h : IsAtB d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem atb_contr_rank (h : IsAtB d) : d.contr.rank = 1 := by
  rw [d.rank_contr, h.lc]; rfl

theorem atb_contr_size (h : IsAtB d) : d.contr.size ⟨0, by rw [atb_contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- `Aᵀ · B`, the sum: over the one contracted axis (each operand's first), entry by entry. -/
theorem atb_sum_eq (h : IsAtB d) (lhs : (⟨2, ![K, M]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 i p) * rhs (ix2 i q) := by
  rw [← Equiv.sum_comp (contrEquiv1 d K (atb_contr_rank h) (atb_contr_size h)).symm]
  refine Finset.sum_congr rfl fun i _ => ?_
  have hk := contrEquiv1_symm_val d K (atb_contr_rank h) (atb_contr_size h) i
  have el : d.lhsIdx (ix2 p q) ((contrEquiv1 d K (atb_contr_rank h) (atb_contr_size h)).symm i) = ix2 i p := by
    funext a; refine Fin.ext ?_
    match a with
    | ⟨0, _⟩ => exact (d.lhsIdx_val_of_single h.lc _ _).trans hk
    | ⟨1, _⟩ => exact atb_lhs_col h _ _
  have er : d.rhsIdx (ix2 p q) ((contrEquiv1 d K (atb_contr_rank h) (atb_contr_size h)).symm i) = ix2 i q := by
    funext a; refine Fin.ext ?_
    match a with
    | ⟨0, _⟩ => exact (d.rhsIdx_val_of_single h.rc _ _).trans hk
    | ⟨1, _⟩ => exact atb_rhs_col h _ _
  rw [el, er]

end AtB

/-- A kernel's `A · Bᵀ` into a zero accumulator, at the exact instance, read at an entry. -/
theorem abt_matmul_zero_apply {d : DotDims ⟨2, ![M, K]⟩ ⟨2, ![N, K]⟩ ⟨2, ![M, N]⟩} (h : IsABt d) {φ₁ φ₂ : FTy}
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ i : Fin K, lhs (ix2 p i) * rhs (ix2 q i) := by
  exact (Ideal.matmul_constant_zero_apply d prec lhs rhs (ix2 p q)).trans (abt_sum_eq h lhs rhs p q)

/-- A kernel's `Aᵀ · B` into a zero accumulator, at the exact instance, read at an entry. -/
theorem atb_matmul_zero_apply {d : DotDims ⟨2, ![K, M]⟩ ⟨2, ![K, N]⟩ ⟨2, ![M, N]⟩} (h : IsAtB d) {φ₁ φ₂ : FTy}
    (prec : Option ContractPrecision) (lhs : FVec Ideal ⟨2, ![K, M]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 i p) * rhs (ix2 i q) := by
  exact (Ideal.matmul_constant_zero_apply d prec lhs rhs (ix2 p q)).trans (atb_sum_eq h lhs rhs p q)

/-- The host's `A · Bᵀ` as a `dot_general`, at the exact instance, read at an entry: the same sum. -/
theorem abt_dotGeneral_apply {d : DotDims ⟨2, ![M, K]⟩ ⟨2, ![N, K]⟩ ⟨2, ![M, N]⟩} (h : IsABt d) {φ₁ φ₂ : FTy}
    (prec : Option ContractPrecision) (sched : HostSchedule)
    (lhs : FVec Ideal ⟨2, ![M, K]⟩ φ₁) (rhs : FVec Ideal ⟨2, ![N, K]⟩ φ₂) (p : Fin M) (q : Fin N) :
    FloatOps.dotGeneral d prec sched lhs rhs (ix2 p q) = ∑ i : Fin K, lhs (ix2 p i) * rhs (ix2 q i) :=
  (Ideal.dotGeneral_apply d prec sched lhs rhs (ix2 p q)).trans (abt_sum_eq h lhs rhs p q)

/-- The host's `Aᵀ · B` as a `dot_general`, at the exact instance, read at an entry: the same sum. -/
theorem atb_dotGeneral_apply {d : DotDims ⟨2, ![K, M]⟩ ⟨2, ![K, N]⟩ ⟨2, ![M, N]⟩} (h : IsAtB d) {φ₁ φ₂ : FTy}
    (prec : Option ContractPrecision) (sched : HostSchedule)
    (lhs : FVec Ideal ⟨2, ![K, M]⟩ φ₁) (rhs : FVec Ideal ⟨2, ![K, N]⟩ φ₂) (p : Fin M) (q : Fin N) :
    FloatOps.dotGeneral d prec sched lhs rhs (ix2 p q) = ∑ i : Fin K, lhs (ix2 i p) * rhs (ix2 i q) :=
  (Ideal.dotGeneral_apply d prec sched lhs rhs (ix2 p q)).trans (atb_sum_eq h lhs rhs p q)

end DotForms

end
-- ==== Proof.LibRealMatrix.lean ====
/-
  Arrays of extended reals that hold real matrices.

  At the exact instance a float array is a function from indices to extended reals.  An [M, N] array HOLDS the real
  matrix `a` when its entry (p, q) is the real number `a p q`.  Sums and products of such arrays hold the sum and
  the matrix product of the matrices they hold — an entrywise sum of reals is real, and a finite sum of products of
  reals is the real sum of products — and a transposed array holds the transposed matrix.  On real matrices the
  product is associative and distributes over sums, which it does not on extended reals at the infinities: this is
  how  (U Uᵀ + I Iᵀ) X  and  U (Uᵀ X) + I (Iᵀ X)  are seen to be one matrix.
-/
import Mathlib.Data.Matrix.Mul
import Mathlib.Data.EReal.Basic
import Idealize.ShloMosaic.Lib.ValueIdx
import Idealize.ShloMosaic.Lib.ValueLayout
import Idealize.ShloMosaic.Lib.Pipeline.Value
import Idealize.ShloMosaic.PureOps.Ideal.Laws
import proofs.«152559_j71090298683825_1_alg».proof.Proof.LibPlainDot
import proofs.«152559_j71090298683825_1_alg».proof.Proof.LibDotForms

noncomputable section

open scoped BigOperators

namespace Cert.RealMatrix

open Idealize.ShloMosaic Idealize.ShloMosaic.ValueIdx

variable {M K N : Nat}

/-- The [M, N] array `A` holds the real matrix `a`: its entry (p, q) is the real number `a p q`. -/
def Holds (A : (⟨2, ![M, N]⟩ : Shape).Idx → EReal) (a : Matrix (Fin M) (Fin N) ℝ) : Prop :=
  ∀ (p : Fin M) (q : Fin N), A (ix2 p q) = ((a p q : ℝ) : EReal)

/-- Two arrays that hold one matrix are equal. -/
theorem Holds.ext {A B : (⟨2, ![M, N]⟩ : Shape).Idx → EReal} {a : Matrix (Fin M) (Fin N) ℝ}
    (hA : Holds A a) (hB : Holds B a) : A = B :=
  funext fun j => by
    obtain ⟨p, q, rfl⟩ : ∃ (p : Fin M) (q : Fin N), j = ix2 p q := ⟨j 0, j 1, eq_ix2 j⟩
    exact (hA p q).trans (hB p q).symm

/-- An array all of whose entries are real holds the matrix of those reals. -/
theorem exists_holds (A : (⟨2, ![M, N]⟩ : Shape).Idx → EReal) (h : ∀ i, ∃ r : ℝ, A i = (r : EReal)) :
    ∃ a : Matrix (Fin M) (Fin N) ℝ, Holds A a :=
  ⟨fun p q => Classical.choose (h (ix2 p q)), fun p q => Classical.choose_spec (h (ix2 p q))⟩

/-- The image of a finite sum of reals is the sum of the images. -/
theorem coe_sum {ι : Type*} (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- A row of one held matrix against a column of another: the sum of the entries' products is the entry of the
    matrix product. -/
theorem sum_mul_eq {A : (⟨2, ![M, K]⟩ : Shape).Idx → EReal} {B : (⟨2, ![K, N]⟩ : Shape).Idx → EReal}
    {a : Matrix (Fin M) (Fin K) ℝ} {b : Matrix (Fin K) (Fin N) ℝ} (hA : Holds A a) (hB : Holds B b) (p : Fin M) (q : Fin N) :
    ∑ i : Fin K, A (ix2 p i) * B (ix2 i q) = (((a * b) p q : ℝ) : EReal) := by
  rw [Matrix.mul_apply, coe_sum]
  refine Finset.sum_congr rfl fun i _ => ?_
  rw [hA, hB, EReal.coe_mul]

section Ops

variable {φ : FTy}

/-- The entrywise sum of two arrays holds the sum of the matrices. -/
theorem Holds.addf {A B : FVec Ideal ⟨2, ![M, N]⟩ φ} {a b : Matrix (Fin M) (Fin N) ℝ} (hA : Holds A a) (hB : Holds B b) :
    Holds (addf A B) (a + b) := fun p q => by
  rw [addf_apply, hA, hB, Matrix.add_apply, EReal.coe_add]

/-- A kernel's plain product into a zero accumulator holds the matrix product. -/
theorem Holds.matmul {d : DotDims ⟨2, ![M, K]⟩ ⟨2, ![K, N]⟩ ⟨2, ![M, N]⟩} (hd : PlainDot.IsPlain d) {φ₁ φ₂ : FTy}
    (prec : Option ContractPrecision) {A : FVec Ideal ⟨2, ![M, K]⟩ φ₁} {B : FVec Ideal ⟨2, ![K, N]⟩ φ₂}
    {a : Matrix (Fin M) (Fin K) ℝ} {b : Matrix (Fin K) (Fin N) ℝ} (hA : Holds A a) (hB : Holds B b) :
    Holds (Idealize.ShloMosaic.matmul d prec A B (constant ⟨2, ![M, N]⟩ .f32 0x00000000#32)) (a * b) := fun p q =>
  (PlainDot.matmul_zero_apply hd prec A B p q).trans (sum_mul_eq hA hB p q)

/-- The host's plain product holds the matrix product. -/
theorem Holds.dotGeneral {d : DotDims ⟨2, ![M, K]⟩ ⟨2, ![K, N]⟩ ⟨2, ![M, N]⟩} (hd : PlainDot.IsPlain d) {φ₁ φ₂ : FTy}
    (prec : Option ContractPrecision) {A : FVec Ideal ⟨2, ![M, K]⟩ φ₁} {B : FVec Ideal ⟨2, ![K, N]⟩ φ₂}
    {a : Matrix (Fin M) (Fin K) ℝ} {b : Matrix (Fin K) (Fin N) ℝ} (hA : Holds A a) (hB : Holds B b) :
    Holds (Host.dotGeneral d prec A B) (a * b) := fun p q =>
  (PlainDot.dotGeneral_apply hd prec .single A B p q).trans (sum_mul_eq hA hB p q)

/-- A transposed array holds the transposed matrix. -/
theorem Holds.transpose {A : (⟨2, ![M, N]⟩ : Shape).Idx → EReal} {a : Matrix (Fin M) (Fin N) ℝ} (hA : Holds A a)
    (h : (⟨2, ![M, N]⟩ : Shape).Transposes [1, 0] ⟨2, ![N, M]⟩) :
    Holds (Idealize.ShloMosaic.transpose ⟨2, ![N, M]⟩ [1, 0] A h) a.transpose := fun p q => by
  rw [transpose_ix2_apply, hA, Matrix.transpose_apply]

/-- A kernel's product of an array with the transpose of another, into a zero accumulator, holds  a · bᵀ. -/
theorem Holds.matmul_abt {d : DotDims ⟨2, ![M, K]⟩ ⟨2, ![N, K]⟩ ⟨2, ![M, N]⟩} (hd : DotForms.IsABt d) {φ₁ φ₂ : FTy}
    (prec : Option ContractPrecision) {A : FVec Ideal ⟨2, ![M, K]⟩ φ₁} {B : FVec Ideal ⟨2, ![N, K]⟩ φ₂}
    {a : Matrix (Fin M) (Fin K) ℝ} {b : Matrix (Fin N) (Fin K) ℝ} (hA : Holds A a) (hB : Holds B b) :
    Holds (Idealize.ShloMosaic.matmul d prec A B (constant ⟨2, ![M, N]⟩ .f32 0x00000000#32)) (a * b.transpose) := fun p q => by
  rw [DotForms.abt_matmul_zero_apply hd prec A B p q, Matrix.mul_apply, coe_sum]
  refine Finset.sum_congr rfl fun i _ => ?_
  rw [hA, hB, EReal.coe_mul, Matrix.transpose_apply]

end Ops

/-! ## The algebra on real matrices -/

variable {H : Nat}

/-- One hypergraph step both ways: the Gram matrices applied to `x`, against the two-stage products. -/
theorem gram_mul (u i : Matrix (Fin M) (Fin H) ℝ) (x : Matrix (Fin M) (Fin N) ℝ) :
    (u * u.transpose + i * i.transpose) * x = u * (u.transpose * x) + i * (i.transpose * x) := by
  rw [Matrix.add_mul, Matrix.mul_assoc, Matrix.mul_assoc]

end Cert.RealMatrix

end
-- ==== Proof.LibRealOps.lean ====
/-
  More operations on arrays that hold real matrices.

  An array of extended reals HOLDS a real matrix when each entry is the image of the matrix's entry.  Beside sums
  and plain products, the two programs of this certificate use: the product of an array with the transpose of
  another on the host (each result entry a sum of products of two rows), the entrywise product with a scalar
  constant spread over the whole shape, a change of float format (which at the exact instance changes nothing),
  and a vector of biases spread along the rows.  Each takes arrays that hold real matrices to an array that holds
  the corresponding real matrix.
-/
import proofs.«152559_j71090298683825_1_alg».proof.Proof.LibRealMatrix

noncomputable section

open scoped BigOperators

namespace Cert.RealOps

open Idealize.ShloMosaic Idealize.ShloMosaic.ValueIdx Cert.RealMatrix

variable {M K N : Nat}

/-- The host's product of an array with the transpose of another holds  a · bᵀ. -/
theorem holds_dotGeneral_abt {d : DotDims ⟨2, ![M, K]⟩ ⟨2, ![N, K]⟩ ⟨2, ![M, N]⟩} (hd : DotForms.IsABt d) {φ₁ φ₂ : FTy}
    (prec : Option ContractPrecision) {A : FVec Ideal ⟨2, ![M, K]⟩ φ₁} {B : FVec Ideal ⟨2, ![N, K]⟩ φ₂}
    {a : Matrix (Fin M) (Fin K) ℝ} {b : Matrix (Fin N) (Fin K) ℝ} (hA : Holds A a) (hB : Holds B b) :
    Holds (Host.dotGeneral d prec A B) (a * b.transpose) := fun p q =>
  (DotForms.abt_dotGeneral_apply hd prec .single A B p q).trans (by
    rw [Matrix.mul_apply, coe_sum]
    refine Finset.sum_congr rfl fun i _ => ?_
    rw [hA, hB, EReal.coe_mul, Matrix.transpose_apply])

/-- A scalar constant spread over any shape reads, at every index, as the value its pattern denotes. -/
theorem splat_apply {t : Shape} (h : (⟨0, ![]⟩ : Shape).BroadcastsInDim t (![] : Fin 0 → Fin t.rank)) (w : BitVec 32)
    (j : t.Idx) :
    broadcastInDim t ![] h (constant (F := Ideal) ⟨0, ![]⟩ .f32 w) j = Ideal.ofBits .f32 w :=
  broadcastInDim_apply _ h _ j (fun a => a.elim0) (fun a => a.elim0)

/-- An array times a spread constant that denotes the real `c` holds  c • a. -/
theorem holds_mul_splat {A : FVec Ideal ⟨2, ![M, N]⟩ .f32} {a : Matrix (Fin M) (Fin N) ℝ} (hA : Holds A a)
    (h : (⟨0, ![]⟩ : Shape).BroadcastsInDim ⟨2, ![M, N]⟩ (![] : Fin 0 → Fin 2)) (w : BitVec 32) (c : ℝ)
    (hw : Ideal.ofBits .f32 w = (c : EReal)) :
    Holds (mulf A (broadcastInDim ⟨2, ![M, N]⟩ ![] h (constant ⟨0, ![]⟩ .f32 w))) (c • a) := fun p q => by
  rw [mulf_apply, hA, splat_apply, hw, ← EReal.coe_mul, Matrix.smul_apply, smul_eq_mul, mul_comm]

/-- A spread constant that denotes the real `c` times an array holds  c • a. -/
theorem holds_splat_mul {A : FVec Ideal ⟨2, ![M, N]⟩ .f32} {a : Matrix (Fin M) (Fin N) ℝ} (hA : Holds A a)
    (h : (⟨0, ![]⟩ : Shape).BroadcastsInDim ⟨2, ![M, N]⟩ (![] : Fin 0 → Fin 2)) (w : BitVec 32) (c : ℝ)
    (hw : Ideal.ofBits .f32 w = (c : EReal)) :
    Holds (mulf (broadcastInDim ⟨2, ![M, N]⟩ ![] h (constant ⟨0, ![]⟩ .f32 w)) A) (c • a) := fun p q => by
  rw [mulf_apply, hA, splat_apply, hw, ← EReal.coe_mul, Matrix.smul_apply, smul_eq_mul]

/-- A change to a narrower float format changes no entry at the exact instance. -/
theorem holds_truncf {φ ψ : FTy} {A : FVec Ideal ⟨2, ![M, N]⟩ φ} {a : Matrix (Fin M) (Fin N) ℝ} (hA : Holds A a)
    (h : ψ.bits < φ.bits) : Holds (truncf ψ A h : FVec Ideal ⟨2, ![M, N]⟩ ψ) a := fun p q =>
  (truncf_apply A h _).trans (hA p q)

/-- The matrix every row of which is the vector `v`. -/
def rows (M : Nat) {N : Nat} (v : Fin N → ℝ) : Matrix (Fin M) (Fin N) ℝ := fun _ q => v q

/-- A vector of extended reals holds a real vector. -/
def HoldsVec (b : (⟨1, ![N]⟩ : Shape).Idx → EReal) (v : Fin N → ℝ) : Prop := ∀ q : Fin N, b (ix1 q) = ((v q : ℝ) : EReal)

/-- A vector all of whose entries are real holds the vector of those reals. -/
theorem exists_holdsVec (b : (⟨1, ![N]⟩ : Shape).Idx → EReal) (h : ∀ i, ∃ r : ℝ, b i = (r : EReal)) :
    ∃ v : Fin N → ℝ, HoldsVec b v :=
  ⟨fun q => Classical.choose (h (ix1 q)), fun q => Classical.choose_spec (h (ix1 q))⟩

/-- A vector made a one-row matrix and then spread along the rows (the host's two broadcasts) holds the matrix
    every row of which is that vector. -/
theorem holds_bcast_rows {b : (⟨1, ![N]⟩ : Shape).Idx → EReal} {v : Fin N → ℝ} (hb : HoldsVec b v)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    Holds (broadcastInDim ⟨2, ![M, N]⟩ ![0, 1] h2 (broadcastInDim ⟨2, ![1, N]⟩ ![1] h1 b)) (rows M v) := fun p q => by
  rw [broadcastInDim_apply _ h2 _ (ix2 p q) (ix2 (0 : Fin 1) q) (fun a => by
      match a with
      | ⟨0, _⟩ => show (0 : ℕ) = if (1 : ℕ) = 1 then 0 else p.val; rw [if_pos rfl]
      | ⟨1, _⟩ =>
        show q.val = if N = 1 then 0 else q.val
        split
        · have := q.isLt; omega
        · rfl),
    broadcastInDim_apply _ h1 _ (ix2 (0 : Fin 1) q) (ix1 q) (fun a => by
      match a with
      | ⟨0, _⟩ =>
        show q.val = if N = 1 then 0 else q.val
        split
        · have := q.isLt; omega
        · rfl)]
  exact hb q

end Cert.RealOps

end
-- ==== Proof.KernelReal.lean ====
/-
  The kernel's result holds a real matrix.

  When the inputs hold real matrices, the merged weight  W + ((B₁ · ½) A₁ + (B₂ · 1) A₂)  holds
  w + ((½ • b₁) a₁ + (1 • b₂) a₂);  transposing and narrowing it gives the region's weight operand, which holds the
  transpose; the narrowed activations hold  x;  and the one-row view of the bias reads the bias vector.  The region's
  result, the affine layer of these three operands, therefore holds
      x (w + ((½ • b₁) a₁ + (1 • b₂) a₂))ᵀ + rows v.
-/
import proofs.«152559_j71090298683825_1_alg».proof.Proof.KernelHost
import proofs.«152559_j71090298683825_1_alg».proof.Proof.KernelBlocks
import proofs.«152559_j71090298683825_1_alg».proof.Proof.LibRealOps
import proofs.«152559_j71090298683825_1_alg».proof.Proof.Scales

noncomputable section

open scoped BigOperators

namespace Cert.KernelIdeal.Real

open Cert.KernelIdeal Cert.KernelIdeal.Gen Idealize.ShloMosaic Idealize.ShloMosaic.TcCoe Idealize.SL.Sem
open Idealize.ShloMosaic.ValueIdx
open Cert.KernelIdeal.Operands Cert.KernelIdeal.Blocks Cert.RealMatrix Cert.RealOps

/-- The host's products that build the merged weight are plain: up-projection columns against down-projection rows. -/
theorem plain_host : PlainDot.IsPlain dot_S1024x16_S16x1024_S1024x1024_1_0_0_1_n_n := ⟨rfl, rfl, rfl, rfl, rfl, rfl⟩

section

variable {X : FVec Ideal S32768x1024 .f32} {W : FVec Ideal S1024x1024 .f32} {b : FVec Ideal S1024 .f32}
  {A1 : FVec Ideal S16x1024 .f32} {B1 : FVec Ideal S1024x16 .f32} {A2 : FVec Ideal S16x1024 .f32}
  {B2 : FVec Ideal S1024x16 .f32}
  {x : Matrix (Fin 32768) (Fin 1024) ℝ} {w : Matrix (Fin 1024) (Fin 1024) ℝ} {v : Fin 1024 → ℝ}
  {a1 : Matrix (Fin 16) (Fin 1024) ℝ} {b1 : Matrix (Fin 1024) (Fin 16) ℝ}
  {a2 : Matrix (Fin 16) (Fin 1024) ℝ} {b2 : Matrix (Fin 1024) (Fin 16) ℝ}

/-- The merged weight holds the merged real weight. -/
theorem holds_merged (hW : Holds W w) (hA1 : Holds A1 a1) (hB1 : Holds B1 b1) (hA2 : Holds A2 a2) (hB2 : Holds B2 b2) :
    Holds (merged W A1 B1 A2 B2) (w + (((1 / 2 : ℝ) • b1) * a1 + ((1 : ℝ) • b2) * a2)) := by
  unfold merged
  exact Holds.addf hW (Holds.addf
    (Holds.dotGeneral plain_host none (holds_mul_splat hB1 _ _ _ Cert.Scales.ofBits_half) hA1)
    (Holds.dotGeneral plain_host none (holds_mul_splat hB2 _ _ _ Cert.Scales.ofBits_one) hA2))

/-- The region's weight operand holds the transposed merged real weight. -/
theorem holds_weightOperand (hW : Holds W w) (hA1 : Holds A1 a1) (hB1 : Holds B1 b1) (hA2 : Holds A2 a2)
    (hB2 : Holds B2 b2) :
    Holds (weightOperand W A1 B1 A2 B2) (w + (((1 / 2 : ℝ) • b1) * a1 + ((1 : ℝ) • b2) * a2)).transpose := by
  unfold weightOperand
  exact holds_truncf (Holds.transpose (holds_merged hW hA1 hB1 hA2 hB2) _) _

/-- The region's activation operand holds the activations. -/
theorem holds_actOperand (hX : Holds X x) : Holds (actOperand X) x := by
  unfold actOperand
  exact holds_truncf hX _

/-- The one-row view of the bias reads, in column q, entry q of the bias vector. -/
theorem biasOperand_apply (b : FVec Ideal S1024 .f32) (q : Fin 1024) :
    biasOperand b (ix2 (0 : Fin 1) q) = b (ix1 q) := by
  unfold biasOperand
  refine shapeCast_apply b _ (ix2 (0 : Fin 1) q) (ix1 q) ?_
  rw [Shape.rowMajor_val_one, Shape.rowMajor_val_two]
  show q.val = 0 * 1024 + q.val
  omega

/-- The affine layer of operands that hold  x,  wt  and read the vector  v  holds  x · wt + rows v. -/
theorem holds_affine {Xo : S32768x1024.Idx → EReal} {Wt : S1024x1024.Idx → EReal} {Bs : S1x1024.Idx → EReal}
    {wt : Matrix (Fin 1024) (Fin 1024) ℝ}
    (hX : Holds Xo x) (hWt : Holds Wt wt) (hB : ∀ q : Fin 1024, Bs (ix2 (0 : Fin 1) q) = ((v q : ℝ) : EReal)) :
    Holds (affine Xo Wt Bs) (x * wt + rows 32768 v) := fun p q => by
  show (∑ i : Fin 1024, Xo (ix2 p i) * Wt (ix2 i q)) + Bs (ix2 (0 : Fin 1) q) = _
  rw [sum_mul_eq hX hWt p q, hB q, ← EReal.coe_add]
  rfl

end

/-- The kernel's result as a function of its seven arguments. -/
def result (X : FVec Ideal S32768x1024 .f32) (W : FVec Ideal S1024x1024 .f32) (b : FVec Ideal S1024 .f32)
    (A1 : FVec Ideal S16x1024 .f32) (B1 : FVec Ideal S1024x16 .f32) (A2 : FVec Ideal S16x1024 .f32)
    (B2 : FVec Ideal S1024x16 .f32) : S32768x1024.Idx → EReal :=
  affine (actOperand X) (weightOperand W A1 B1 A2 B2) (biasOperand b)

/-- On inputs that hold real matrices the kernel's result holds one product with the merged weight, plus the bias. -/
theorem holds_result {X : FVec Ideal S32768x1024 .f32} {W : FVec Ideal S1024x1024 .f32} {b : FVec Ideal S1024 .f32}
    {A1 : FVec Ideal S16x1024 .f32} {B1 : FVec Ideal S1024x16 .f32} {A2 : FVec Ideal S16x1024 .f32}
    {B2 : FVec Ideal S1024x16 .f32}
    {x : Matrix (Fin 32768) (Fin 1024) ℝ} {w : Matrix (Fin 1024) (Fin 1024) ℝ} {v : Fin 1024 → ℝ}
    {a1 : Matrix (Fin 16) (Fin 1024) ℝ} {b1 : Matrix (Fin 1024) (Fin 16) ℝ}
    {a2 : Matrix (Fin 16) (Fin 1024) ℝ} {b2 : Matrix (Fin 1024) (Fin 16) ℝ}
    (hX : Holds X x) (hW : Holds W w) (hb : HoldsVec b v) (hA1 : Holds A1 a1) (hB1 : Holds B1 b1)
    (hA2 : Holds A2 a2) (hB2 : Holds B2 b2) :
    Holds (result X W b A1 B1 A2 B2)
      (x * (w + (((1 / 2 : ℝ) • b1) * a1 + ((1 : ℝ) • b2) * a2)).transpose + rows 32768 v) :=
  holds_affine (holds_actOperand hX) (holds_weightOperand hW hA1 hB1 hA2 hB2)
    (fun q => (biasOperand_apply b q).trans (hb q))

variable (m : (ℓ : Loc nD τ sig) → Buf (Elt Ideal) ℓ) (ρ : Dev nD → PrngReg)

/-- THE RUN, read: the result array ends at `result` of the launch contents of the arguments, which end unchanged. -/
theorem run : θ_run defs (onTc (τ := τ) (main (F := Ideal))) ⟨m, fun _ => 0, ρ⟩ fun r => ∀ c : Dev nD,
      r.2.mem ((c : Thread nD τ).loc main_v12)
        = result (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
            (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((final m c).trans (by
      rw [V_act m c, V_weight m c, V_bias m c]; rfl)), (h c).2⟩)
    (Cert.KernelIdeal.Value.run_blocks m ρ)

end Cert.KernelIdeal.Real

end
-- ==== Proof.RefReal.lean ====
/-
  The reference's result holds a real matrix.

  The reference computes the base layer  x Wᵀ + b  (the bias spread along the rows) and adds the two adapter paths,
  each a product with the transposed down-projection followed by a product with the transposed up-projection, scaled
  by  ½  and by  1.  When the inputs hold real matrices  x, w, a₁, b₁, a₂, b₂  and the real vector  v,  every stage
  holds the corresponding real matrix, so the result holds
      ((x wᵀ + rows v) + ½ • ((x a₁ᵀ) b₁ᵀ)) + 1 • ((x a₂ᵀ) b₂ᵀ).
-/
import proofs.«152559_j71090298683825_1_alg».proof.Proof.Gen.ReferenceIdeal.Run
import proofs.«152559_j71090298683825_1_alg».proof.Proof.LibRealOps
import proofs.«152559_j71090298683825_1_alg».proof.Proof.Scales

noncomputable section

namespace Cert.ReferenceIdeal.Real

open Cert.ReferenceIdeal Idealize.ShloMosaic Idealize.ShloMosaic.ValueIdx Cert.RealMatrix Cert.RealOps

/-- Each of the reference's three kinds of product contracts the second axis of both operands. -/
theorem abt_base : DotForms.IsABt dot_S32768x1024_S1024x1024_S32768x1024_1_1_0_0_n_n := ⟨rfl, rfl, rfl, rfl, rfl, rfl⟩
theorem abt_down : DotForms.IsABt dot_S32768x1024_S16x1024_S32768x16_1_1_0_0_n_n := ⟨rfl, rfl, rfl, rfl, rfl, rfl⟩
theorem abt_up : DotForms.IsABt dot_S32768x16_S1024x16_S32768x1024_1_1_0_0_n_n := ⟨rfl, rfl, rfl, rfl, rfl, rfl⟩

/-- The reference's result as a function of its seven arguments. -/
def result (X : FVec Ideal S32768x1024 .f32) (W : FVec Ideal S1024x1024 .f32) (b : FVec Ideal S1024 .f32)
    (A1 : FVec Ideal S16x1024 .f32) (B1 : FVec Ideal S1024x16 .f32) (A2 : FVec Ideal S16x1024 .f32)
    (B2 : FVec Ideal S1024x16 .f32) : FVec Ideal S32768x1024 .f32 :=
  addf (addf (addf (Host.dotGeneral dot_S32768x1024_S1024x1024_S32768x1024_1_1_0_0_n_n none X W)
        (broadcastInDim S32768x1024 ![0, 1] Facts₀.bcast_S1x1024_S32768x1024_0_1
          (broadcastInDim S1x1024 ![1] Facts₀.bcast_S1024_S1x1024_1 b)))
      (mulf (broadcastInDim S32768x1024 ![] Facts₀.bcast_S_S32768x1024 (constant (F := Ideal) S_ .f32 0x3F000000#32))
        (Host.dotGeneral dot_S32768x16_S1024x16_S32768x1024_1_1_0_0_n_n none
          (Host.dotGeneral dot_S32768x1024_S16x1024_S32768x16_1_1_0_0_n_n none X A1) B1)))
    (mulf (broadcastInDim S32768x1024 ![] Facts₀.bcast_S_S32768x1024 (constant (F := Ideal) S_ .f32 0x3F800000#32))
      (Host.dotGeneral dot_S32768x16_S1024x16_S32768x1024_1_1_0_0_n_n none
        (Host.dotGeneral dot_S32768x1024_S16x1024_S32768x16_1_1_0_0_n_n none X A2) B2))

/-- On inputs that hold real matrices the result holds the layer's real matrix. -/
theorem holds_result {X : FVec Ideal S32768x1024 .f32} {W : FVec Ideal S1024x1024 .f32} {b : FVec Ideal S1024 .f32}
    {A1 : FVec Ideal S16x1024 .f32} {B1 : FVec Ideal S1024x16 .f32} {A2 : FVec Ideal S16x1024 .f32}
    {B2 : FVec Ideal S1024x16 .f32}
    {x : Matrix (Fin 32768) (Fin 1024) ℝ} {w : Matrix (Fin 1024) (Fin 1024) ℝ} {v : Fin 1024 → ℝ}
    {a1 : Matrix (Fin 16) (Fin 1024) ℝ} {b1 : Matrix (Fin 1024) (Fin 16) ℝ}
    {a2 : Matrix (Fin 16) (Fin 1024) ℝ} {b2 : Matrix (Fin 1024) (Fin 16) ℝ}
    (hX : Holds X x) (hW : Holds W w) (hb : HoldsVec b v) (hA1 : Holds A1 a1) (hB1 : Holds B1 b1)
    (hA2 : Holds A2 a2) (hB2 : Holds B2 b2) :
    Holds (result X W b A1 B1 A2 B2)
      (((x * w.transpose + rows 32768 v) + (1 / 2 : ℝ) • ((x * a1.transpose) * b1.transpose))
        + (1 : ℝ) • ((x * a2.transpose) * b2.transpose)) := by
  unfold result
  exact Holds.addf
    (Holds.addf (Holds.addf (holds_dotGeneral_abt abt_base none hX hW) (holds_bcast_rows hb _ _))
      (holds_splat_mul (holds_dotGeneral_abt abt_up none (holds_dotGeneral_abt abt_down none hX hA1) hB1) _ _ _
        Cert.Scales.ofBits_half))
    (holds_splat_mul (holds_dotGeneral_abt abt_up none (holds_dotGeneral_abt abt_down none hX hA2) hB2) _ _ _
      Cert.Scales.ofBits_one)

end Cert.ReferenceIdeal.Real

end
-- ==== Proof.lean ====
/-
  A linear layer with two low-rank adapters: the fused kernel against the layer written out.

  The reference computes, for activations  x  (32768 × 1024), base weight  W  (1024 × 1024, one row per output),
  bias  b  and adapters  (A₁, B₁), (A₂, B₂)  of rank 16 with scales  ½  and  1,
      x Wᵀ + b + ½ · (x A₁ᵀ) B₁ᵀ + 1 · (x A₂ᵀ) B₂ᵀ .
  The kernel first merges the adapters into the weight on the host,  W' = W + ((B₁ · ½) A₁ + (B₂ · 1) A₂),  and then
  runs ONE product  x W'ᵀ + b  in a pipelined region, 2048 rows of  x  per grid point, with bf16 operands (a change
  of format is the identity at the exact instance).

  The two are equal because the matrix product is associative and distributes over sums — laws of real matrices
  that fail on extended reals at the infinities.  So the proof reads the precondition first (every input entry is a
  real number), lets each array HOLD a real matrix, follows both programs stage by stage on the matrices held, and
  finishes with the merging law on real matrices.  `preserves` has no conjunct: the idealized kernel is the kernel's own text read at the exact instance.
-/
import proofs.«152559_j71090298683825_1_alg».proof.Defs
import proofs.«152559_j71090298683825_1_alg».proof.Proof.Gen.Kernel
import proofs.«152559_j71090298683825_1_alg».proof.Proof.Gen.Kernel.Skeleton
import proofs.«152559_j71090298683825_1_alg».proof.Proof.Gen.Kernel.Launch
import proofs.«152559_j71090298683825_1_alg».proof.Proof.Gen.Kernel.Points
import proofs.«152559_j71090298683825_1_alg».proof.Proof.Gen.Kernel.Frame
import proofs.«152559_j71090298683825_1_alg».proof.Proof.Gen.KernelIdeal
import proofs.«152559_j71090298683825_1_alg».proof.Proof.Gen.KernelIdeal.Skeleton
import proofs.«152559_j71090298683825_1_alg».proof.Proof.Gen.KernelIdeal.Launch
import proofs.«152559_j71090298683825_1_alg».proof.Proof.Gen.KernelIdeal.Points
import proofs.«152559_j71090298683825_1_alg».proof.Proof.Gen.KernelIdeal.Frame
import proofs.«152559_j71090298683825_1_alg».proof.Proof.Gen.ReferenceIdeal
import proofs.«152559_j71090298683825_1_alg».proof.Proof.Gen.Pre_finite_inputs
import proofs.«152559_j71090298683825_1_alg».proof.Proof.Gen.KernelIdeal.Value
import proofs.«152559_j71090298683825_1_alg».proof.Proof.Gen.ReferenceIdeal.Run
import Idealize.ShloMosaic.Adequacy
import Idealize.ShloMosaic.Init

import proofs.«152559_j71090298683825_1_alg».proof.Proof.Finite
import proofs.«152559_j71090298683825_1_alg».proof.Proof.LibMergeLaw
import proofs.«152559_j71090298683825_1_alg».proof.Proof.KernelReal
import proofs.«152559_j71090298683825_1_alg».proof.Proof.RefReal

noncomputable section

namespace Cert.Proof

open Idealize.ShloMosaic Idealize.ShloMosaic.TcCoe Idealize.SL.Sem
open Cert.RealMatrix Cert.RealOps

/-- On inputs all of whose entries are real, the reference's result and the kernel's result are one array: both
    hold the same real matrix, by the merging law. -/
theorem results_eq [Cert.Pre_finite_inputs.Facts]
    (X : FVec Ideal Cert.KernelIdeal.S32768x1024 .f32) (W : FVec Ideal Cert.KernelIdeal.S1024x1024 .f32)
    (b : FVec Ideal Cert.KernelIdeal.S1024 .f32) (A1 : FVec Ideal Cert.KernelIdeal.S16x1024 .f32)
    (B1 : FVec Ideal Cert.KernelIdeal.S1024x16 .f32) (A2 : FVec Ideal Cert.KernelIdeal.S16x1024 .f32)
    (B2 : FVec Ideal Cert.KernelIdeal.S1024x16 .f32)
    (hpre : Cert.Pre_finite_inputs.fn (F := Ideal) X W b A1 B1 A2 B2 = fun _ => 1#1) :
    Cert.ReferenceIdeal.Real.result X W b A1 B1 A2 B2 = Cert.KernelIdeal.Real.result X W b A1 B1 A2 B2 := by
  obtain ⟨r0, r1, r2, r3, r4, r5, r6⟩ := Cert.Finite.inputs_real X W b A1 B1 A2 B2 hpre
  obtain ⟨x, hX⟩ := exists_holds X r0
  obtain ⟨w, hW⟩ := exists_holds W r1
  obtain ⟨v, hb⟩ := exists_holdsVec b r2
  obtain ⟨a1, hA1⟩ := exists_holds A1 r3
  obtain ⟨b1, hB1⟩ := exists_holds B1 r4
  obtain ⟨a2, hA2⟩ := exists_holds A2 r5
  obtain ⟨b2, hB2⟩ := exists_holds B2 r6
  refine Holds.ext ?_ (Cert.KernelIdeal.Real.holds_result hX hW hb hA1 hB1 hA2 hB2)
  rw [Cert.MergeLaw.merged]
  exact Cert.ReferenceIdeal.Real.holds_result hX hW hb hA1 hB1 hA2 hB2

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs run; the kernel's result array ends at its affine layer of the merged operands, the reference's at
    the layer written out, of arguments that agree and are finite: one array (`results_eq`). -/
theorem algebraic : Cert.algebraic_KernelIdeal_ReferenceIdeal := by
  intro m ρ m' ρ' hpre hagree
  refine ⟨fun c => Cert.KernelIdeal.Real.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.Real.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [e0, e1, e2, e3, e4, e5, e6]
  exact results_eq _ _ _ _ _ _ _ (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
